-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x4096 : Shape := ⟨3, ![4, 1024, 4096]⟩
abbrev S352256x128 : Shape := ⟨2, ![352256, 128]⟩
abbrev S352256x8 : Shape := ⟨2, ![352256, 8]⟩
abbrev S_ : Shape := ⟨0, ![]⟩

class Facts : Prop where
  bcast_S_S4x1024x4096 : S_.BroadcastsInDim S4x1024x4096 (![] : Fin 0 → Fin S4x1024x4096.rank)
  reducesTo_S4x1024x4096_S_d0_1_2 : S4x1024x4096.ReducesTo [0, 1, 2] S_
  h_S_ : 0 < S_.numel
  bcast_S_S352256x8 : S_.BroadcastsInDim S352256x8 (![] : Fin 0 → Fin S352256x8.rank)
  reducesTo_S352256x8_S_d0_1 : S352256x8.ReducesTo [0, 1] S_
  bcast_S_S352256x128 : S_.BroadcastsInDim S352256x128 (![] : Fin 0 → Fin S352256x128.rank)
  reducesTo_S352256x128_S_d0_1 : S352256x128.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S4x1024x4096 .f32) (main_arg1 : IVec S352256x128 32) (main_arg2 : FVec F S352256x8 .f32) : IVec S_ 1 :=
  let main_v0 : FVec F S4x1024x4096 .f32 := Host.absf main_arg0
  let main_cst : FVec F S_ .f32 := constant S_ .f32 0x7F800000#32
  let main_v1 : FVec F S4x1024x4096 .f32 := broadcastInDim S4x1024x4096 ![] bcast_S_S4x1024x4096 main_cst
  let main_v2 : IVec S4x1024x4096 1 := cmpf .olt main_v0 main_v1
  let main_c : IVec S_ 1 := constantI S_ 1 1#1
  let main_v3 : IVec S_ 1 := (fun x v => Host.reduce IntOp.andi x v reducesTo_S4x1024x4096_S_d0_1_2 h_S_) main_v2 main_c
  let main_v4 : FVec F S352256x8 .f32 := Host.absf main_arg2
  let main_cst_0 : FVec F S_ .f32 := constant S_ .f32 0x7F800000#32
  let main_v5 : FVec F S352256x8 .f32 := broadcastInDim S352256x8 ![] bcast_S_S352256x8 main_cst_0
  let main_v6 : IVec S352256x8 1 := cmpf .olt main_v4 main_v5
  let main_c_1 : IVec S_ 1 := constantI S_ 1 1#1
  let main_v7 : IVec S_ 1 := (fun x v => Host.reduce IntOp.andi x v reducesTo_S352256x8_S_d0_1 h_S_) main_v6 main_c_1
  let main_v8 : IVec S_ 1 := andi main_v3 main_v7
  let main_c_2 : IVec S_ 32 := constantI S_ 32 0#32
  let main_v9 : IVec S352256x128 32 := broadcastInDim S352256x128 ![] bcast_S_S352256x128 main_c_2
  let main_v10 : IVec S352256x128 1 := cmpi .sge main_arg1 main_v9
  let main_c_3 : IVec S_ 1 := constantI S_ 1 1#1
  let main_v11 : IVec S_ 1 := (fun x v => Host.reduce IntOp.andi x v reducesTo_S352256x128_S_d0_1 h_S_) main_v10 main_c_3
  let main_v12 : IVec S_ 1 := andi main_v8 main_v11
  let main_c_4 : IVec S_ 32 := constantI S_ 32 8#32
  let main_v13 : IVec S352256x128 32 := broadcastInDim S352256x128 ![] bcast_S_S352256x128 main_c_4
  let main_v14 : IVec S352256x128 1 := cmpi .slt main_arg1 main_v13
  let main_c_5 : IVec S_ 1 := constantI S_ 1 1#1
  let main_v15 : IVec S_ 1 := (fun x v => Host.reduce IntOp.andi x v reducesTo_S352256x128_S_d0_1 h_S_) main_v14 main_c_5
  fn_part1 (F := F) main_v12 main_v15
-- ==== Kernel.lean ====
abbrev S4x1024x4096 : Shape := ⟨3, ![4, 1024, 4096]⟩
abbrev S352256x128 : Shape := ⟨2, ![352256, 128]⟩
abbrev S352256x8 : Shape := ⟨2, ![352256, 8]⟩
abbrev S4096x11008 : Shape := ⟨2, ![4096, 11008]⟩
abbrev S4096x86x8 : Shape := ⟨3, ![4096, 86, 8]⟩
abbrev S86x4096x8 : Shape := ⟨3, ![86, 4096, 8]⟩
abbrev S4096x4096 : Shape := ⟨2, ![4096, 4096]⟩
abbrev S4096x128 : Shape := ⟨2, ![4096, 128]⟩
abbrev S1x4096x8 : Shape := ⟨3, ![1, 4096, 8]⟩
abbrev S4096x8 : Shape := ⟨2, ![4096, 8]⟩
abbrev S4096x1 : Shape := ⟨2, ![4096, 1]⟩
abbrev S4x1024x11008 : Shape := ⟨3, ![4, 1024, 11008]⟩

abbrev nBuf : Space → Nat
  | .hbm => 10
  | .vmem => 6
  | .smem => 0
  | _ => 0

abbrev bufTy : (tb : Table) → Fin (tcTables nBuf tb) → BufTy
  | .hbm, ⟨0, _⟩ => ⟨S4x1024x4096, .f32⟩
  | .hbm, ⟨1, _⟩ => ⟨S352256x128, .i32⟩
  | .hbm, ⟨2, _⟩ => ⟨S352256x8, .f32⟩
  | .hbm, ⟨3, _⟩ => ⟨S4096x11008, .i32⟩
  | .hbm, ⟨4, _⟩ => ⟨S4096x86x8, .f32⟩
  | .hbm, ⟨5, _⟩ => ⟨S86x4096x8, .f32⟩
  | .hbm, ⟨6, _⟩ => ⟨S4096x4096, .f32⟩
  | .hbm, ⟨7, _⟩ => ⟨S4096x4096, .bf16⟩
  | .hbm, ⟨8, _⟩ => ⟨S4096x11008, .f32⟩
  | .hbm, ⟨9, _⟩ => ⟨S4x1024x11008, .f32⟩
  | .local _ .vmem, ⟨0, _⟩ => ⟨S4096x4096, .bf16⟩
  | .local _ .vmem, ⟨1, _⟩ => ⟨S4096x128, .i32⟩
  | .local _ .vmem, ⟨2, _⟩ => ⟨S4096x128, .i32⟩
  | .local _ .vmem, ⟨3, _⟩ => ⟨S1x4096x8, .f32⟩
  | .local _ .vmem, ⟨4, _⟩ => ⟨S1x4096x8, .f32⟩
  | .local _ .vmem, ⟨5, _⟩ => ⟨S4096x128, .f32⟩
  | _, _ => ⟨S4x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![86], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

class Facts₀ : Prop where
  shapeCasts_S352256x128_S4096x11008 : S352256x128.ShapeCasts S4096x11008
  shapeCasts_S352256x8_S4096x86x8 : S352256x8.ShapeCasts S4096x86x8
  transposes_S4096x86x8_S86x4096x8_1_0_2 : S4096x86x8.Transposes [1, 0, 2] S86x4096x8
  shapeCasts_S4x1024x4096_S4096x4096 : S4x1024x4096.ShapeCasts S4096x4096
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x4096x8_S1x4096x8_0_0_0 : ∀ a, (![0, 0, 0] : Fin 3 → Nat) a + S1x4096x8.size a ≤ S1x4096x8.size a
  h_S1x4096x8 : 0 < S1x4096x8.numel
  shapeCasts_S1x4096x8_S4096x8 : S1x4096x8.ShapeCasts S4096x8
  slices_S4096x8_o0_0_S4096x1 : S4096x8.Slices ![0, 0] S4096x1
  shapeCasts_S4096x1_S4096x1 : S4096x1.ShapeCasts S4096x1
  broadcasts_S4096x1_S4096x128 : S4096x1.Broadcasts S4096x128
  slices_S4096x8_o0_1_S4096x1 : S4096x8.Slices ![0, 1] S4096x1
  slices_S4096x8_o0_2_S4096x1 : S4096x8.Slices ![0, 2] S4096x1
  slices_S4096x8_o0_3_S4096x1 : S4096x8.Slices ![0, 3] S4096x1
  slices_S4096x8_o0_4_S4096x1 : S4096x8.Slices ![0, 4] S4096x1
  slices_S4096x8_o0_5_S4096x1 : S4096x8.Slices ![0, 5] S4096x1
  slices_S4096x8_o0_6_S4096x1 : S4096x8.Slices ![0, 6] S4096x1
  slices_S4096x8_o0_7_S4096x1 : S4096x8.Slices ![0, 7] S4096x1
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  shapeCasts_S4096x11008_S4x1024x11008 : S4096x11008.ShapeCasts S4x1024x11008
  dot_S4096x4096_S4096x128_S4096x128_1_0_0_1_n_n_wf : DotDims.WF S4096x4096 S4096x128 S4096x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x4096.size a ≤ S4096x4096.size a
  hwx0_0 : ∀ i : grid0.Coords, EltTy.bits .bf16 = 32 ∨ (Rect.block (s := S4096x4096) S4096x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x11008.size a
  hwx0_1 : ∀ i : grid0.Coords, EltTy.bits .i32 = 32 ∨ (Rect.block (s := S4096x11008) S4096x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x8.size a ≤ S86x4096x8.size a
  hwx0_2 : ∀ i : grid0.Coords, EltTy.bits .f32 = 32 ∨ (Rect.block (s := S86x4096x8) S1x4096x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S4096x11008.size a
  hwx0_3 : ∀ i : grid0.Coords, EltTy.bits .f32 = 32 ∨ (Rect.block (s := S4096x11008) S4096x128.size (cc0_transform_3 i) (hinb0_3 i)).WholeWords (EltTy.packing .f32)

variable [Facts₀]

def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

abbrev win0_0 : Pipeline.Window sig grid0 :=
  Pipeline.Window.ofSpec (Memref.whole main_v4) S4096x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4096x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x1024x4096 : Shape := ⟨3, ![4, 1024, 4096]⟩
abbrev S352256x128 : Shape := ⟨2, ![352256, 128]⟩
abbrev S352256x8 : Shape := ⟨2, ![352256, 8]⟩
abbrev S_ : Shape := ⟨0, ![]⟩
abbrev S352256x128x1 : Shape := ⟨3, ![352256, 128, 1]⟩
abbrev S1 : Shape := ⟨1, ![1]⟩
abbrev S1x1x1 : Shape := ⟨3, ![1, 1, 1]⟩
abbrev S45088768 : Shape := ⟨1, ![45088768]⟩
abbrev S4096x11008 : Shape := ⟨2, ![4096, 11008]⟩
abbrev S4096x4096 : Shape := ⟨2, ![4096, 4096]⟩
abbrev S4x1024x11008 : Shape := ⟨3, ![4, 1024, 11008]⟩

abbrev nBuf : Space → Nat
  | .hbm => 30
  | .vmem => 0
  | .smem => 0
  | _ => 0

abbrev bufTy : (tb : Table) → Fin (tcTables nBuf tb) → BufTy
  | .hbm, ⟨0, _⟩ => ⟨S4x1024x4096, .f32⟩
  | .hbm, ⟨1, _⟩ => ⟨S352256x128, .i32⟩
  | .hbm, ⟨2, _⟩ => ⟨S352256x8, .f32⟩
  | .hbm, ⟨3, _⟩ => ⟨S_, .i32⟩
  | .hbm, ⟨4, _⟩ => ⟨S352256x128, .i32⟩
  | .hbm, ⟨5, _⟩ => ⟨S352256x128, .i1⟩
  | .hbm, ⟨6, _⟩ => ⟨S_, .i32⟩
  | .hbm, ⟨7, _⟩ => ⟨S352256x128, .i32⟩
  | .hbm, ⟨8, _⟩ => ⟨S352256x128, .i32⟩
  | .hbm, ⟨9, _⟩ => ⟨S352256x128, .i32⟩
  | .hbm, ⟨10, _⟩ => ⟨S352256x128x1, .i32⟩
  | .hbm, ⟨11, _⟩ => ⟨S1, .i32⟩
  | .hbm, ⟨12, _⟩ => ⟨S_, .i32⟩
  | .hbm, ⟨13, _⟩ => ⟨S352256x128x1, .i32⟩
  | .hbm, ⟨14, _⟩ => ⟨S352256x128x1, .i1⟩
  | .hbm, ⟨15, _⟩ => ⟨S1x1x1, .i32⟩
  | .hbm, ⟨16, _⟩ => ⟨S352256x128x1, .i32⟩
  | .hbm, ⟨17, _⟩ => ⟨S352256x128x1, .i1⟩
  | .hbm, ⟨18, _⟩ => ⟨S352256x128x1, .i1⟩
  | .hbm, ⟨19, _⟩ => ⟨S_, .i1⟩
  | .hbm, ⟨20, _⟩ => ⟨S352256x128, .i1⟩
  | .hbm, ⟨21, _⟩ => ⟨S352256x128, .f32⟩
  | .hbm, ⟨22, _⟩ => ⟨S_, .f32⟩
  | .hbm, ⟨23, _⟩ => ⟨S352256x128, .f32⟩
  | .hbm, ⟨24, _⟩ => ⟨S352256x128, .f32⟩
  | .hbm, ⟨25, _⟩ => ⟨S45088768, .f32⟩
  | .hbm, ⟨26, _⟩ => ⟨S4096x11008, .f32⟩
  | .hbm, ⟨27, _⟩ => ⟨S4096x4096, .f32⟩
  | .hbm, ⟨28, _⟩ => ⟨S4096x11008, .f32⟩
  | .hbm, ⟨29, _⟩ => ⟨S4x1024x11008, .f32⟩
  | _, _ => ⟨S4x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩

abbrev nD : Nat := 1
abbrev τ : Topo := Topo.v7x

variable {F : FTy → Type} [FloatOps F]

class Facts₀ : Prop where
  bcast_S_S352256x128 : S_.BroadcastsInDim S352256x128 (![] : Fin 0 → Fin S352256x128.rank)
  shapeCasts_S352256x128_S352256x128x1 : S352256x128.ShapeCasts S352256x128x1
  bcast_S_S352256x128x1 : S_.BroadcastsInDim S352256x128x1 (![] : Fin 0 → Fin S352256x128x1.rank)
  bcast_S1_S1x1x1_2 : S1.BroadcastsInDim S1x1x1 (![2] : Fin 1 → Fin S1x1x1.rank)
  bcast_S1x1x1_S352256x128x1_0_1_2 : S1x1x1.BroadcastsInDim S352256x128x1 (![0, 1, 2] : Fin 3 → Fin S352256x128x1.rank)
  reducesTo_S352256x128x1_S352256x128_d2 : S352256x128x1.ReducesTo [2] S352256x128
  h_S_ : 0 < S_.numel
  shapeCasts_S352256x128_S45088768 : S352256x128.ShapeCasts S45088768
  shapeCasts_S45088768_S4096x11008 : S45088768.ShapeCasts S4096x11008
  shapeCasts_S4x1024x4096_S4096x4096 : S4x1024x4096.ShapeCasts S4096x4096
  shapeCasts_S4096x11008_S4x1024x11008 : S4096x11008.ShapeCasts S4x1024x11008
  gather_S352256x8_S352256x128x1_S352256x128_n_1_0_0_1_2_11_wf : GatherDims.WF S352256x8 S352256x128x1 S352256x128 [] [1] [0] [1] [0] 2 ![1, 1]
  dot_S4096x4096_S4096x11008_S4096x11008_1_0_0_1_n_n_wf : DotDims.WF S4096x4096 S4096x11008 S4096x11008 [1] [0] [0] [1] [] []

variable [Facts₀]

def gather_S352256x8_S352256x128x1_S352256x128_n_1_0_0_1_2_11 : GatherDims S352256x8 S352256x128x1 S352256x128 where
  offsetDims := []
  collapsedSliceDims := [1]
  operandBatchingDims := [0]
  startIndicesBatchingDims := [0]
  startIndexMap := [1]
  indexVectorDim := 2
  sliceSizes := ![1, 1]
  wf := gather_S352256x8_S352256x128x1_S352256x128_n_1_0_0_1_2_11_wf
def dot_S4096x4096_S4096x11008_S4096x11008_1_0_0_1_n_n : DotDims S4096x4096 S4096x11008 S4096x11008 where
  lhsContracting := [1]
  rhsContracting := [0]
  lhsNonContracting := [0]
  rhsNonContracting := [1]
  lhsBatch := []
  rhsBatch := []
  wf := dot_S4096x4096_S4096x11008_S4096x11008_1_0_0_1_n_n_wf

class Facts : Prop extends Facts₀ where

variable [Facts]
-- ==== Proof.Spec.lean ====
/-
  The mathematics both programs compute.

  A weight matrix `W : [4096, 11008]` is stored quantised: its row-major flattening is cut into 352256 blocks of 128
  consecutive entries; block `r` has a codebook row `cb[r, 0..7]` of eight values and an index row `idx[r, 0..127]` of
  words, and entry `l` of the block is `cb[r, idx[r, l]]`. Since 11008 = 86 · 128, entry `(k, o)` of `W` lies in block
  `86 k + o / 128` at lane `o mod 128`. The result is the product `x · W` of the tokens `x : [4, 1024, 4096]` (4096 rows of
  4096 features) with `W`:
      out[b, s, o] = Σ_k x[b, s, k] · cb[86 k + o / 128, idx[86 k + o / 128, o mod 128]].
  Which of a block's eight codebook values a word selects is written here as the chain of selections
  "if the word is 7 then entry 7, else if it is 6 then entry 6, …, else entry 0" (`pick`); for a word that, read signed, lies
  in [0, 8) that is the entry the word names (`pick_of_range`).
-/
import Idealize.ShloMosaic.PureOps.Ideal
import Idealize.ShloMosaic.Lib.ValueIdx

noncomputable section

namespace Cert.Dequant

open Idealize.ShloMosaic Idealize.ShloMosaic.ValueIdx

/-- The tokens, the index words, the codebook, the weight matrix and the result, as arrays of extended reals and words. -/
abbrev Tokens : Type := (⟨3, ![4, 1024, 4096]⟩ : Shape).Idx → EReal
abbrev Words : Type := (⟨2, ![352256, 128]⟩ : Shape).Idx → BitVec 32
abbrev Codebook : Type := (⟨2, ![352256, 8]⟩ : Shape).Idx → EReal
abbrev Weights : Type := (⟨2, ![4096, 11008]⟩ : Shape).Idx → EReal
abbrev Result : Type := (⟨3, ![4, 1024, 11008]⟩ : Shape).Idx → EReal

/-- The codebook value a word selects among eight, as a chain of selections: the last test that succeeds wins, and a
    word that is none of 1, …, 7 leaves entry 0. -/
def pick (c : Fin 8 → EReal) (w : BitVec 32) : EReal :=
  Scalar.select (IntOp.cmpi .eq w 7#32) (c 7)
    (Scalar.select (IntOp.cmpi .eq w 6#32) (c 6)
      (Scalar.select (IntOp.cmpi .eq w 5#32) (c 5)
        (Scalar.select (IntOp.cmpi .eq w 4#32) (c 4)
          (Scalar.select (IntOp.cmpi .eq w 3#32) (c 3)
            (Scalar.select (IntOp.cmpi .eq w 2#32) (c 2)
              (Scalar.select (IntOp.cmpi .eq w 1#32) (c 1) (c 0)))))))

/-- The entry of eight a word names, its value taken modulo 8 (total; the word's own value when that is below 8). -/
def entryOf (w : BitVec 32) : Fin 8 := ⟨w.toNat % 8, Nat.mod_lt _ (by decide)⟩

/-- A word that, read signed, lies in [0, 8) has a value below 8. -/
theorem toNat_lt_of_range (w : BitVec 32) (h0 : 0 ≤ w.toInt) (h8 : w.toInt < 8) : w.toNat < 8 := by
  have hw := w.isLt
  rw [BitVec.toInt_eq_toNat_cond] at h0 h8
  split at h0 <;> omega

/-- For a word in [0, 8) the chain of selections is the entry the word names. -/
theorem pick_of_range (c : Fin 8 → EReal) (w : BitVec 32) (h0 : 0 ≤ w.toInt) (h8 : w.toInt < 8) :
    pick c w = c (entryOf w) := by
  have hn := toNat_lt_of_range w h0 h8
  have hw : w = BitVec.ofNat 32 w.toNat := by simp
  generalize w.toNat = n at hn hw
  subst hw
  interval_cases n <;> rfl

/-- The block of 128 consecutive entries that holds entry `(k, o)` of the weight matrix: 11008 = 86 · 128 entries a row. -/
def blockOf (k : Fin 4096) (o : Fin 11008) : Fin 352256 := ⟨k.val * 86 + o.val / 128, by omega⟩
/-- Its lane inside the block. -/
def laneOf (o : Fin 11008) : Fin 128 := ⟨o.val % 128, Nat.mod_lt _ (by decide)⟩

/-- Entry `(k, o)` of the dequantised weight matrix. -/
def weightAt (idx : Words) (cb : Codebook) (k : Fin 4096) (o : Fin 11008) : EReal :=
  pick (fun e => cb (ix2 (blockOf k o) e)) (idx (ix2 (blockOf k o) (laneOf o)))

/-- The dequantised weight matrix. -/
def weights (idx : Words) (cb : Codebook) : Weights := fun i => weightAt idx cb (i 0) (i 1)

/-- Entry `(b, s, o)` of the result: token `(b, s)` against column `o` of the dequantised weights. -/
def resultAt (x : Tokens) (idx : Words) (cb : Codebook) (b : Fin 4) (s : Fin 1024) (o : Fin 11008) : EReal :=
  ∑ k : Fin 4096, x (ix3 b s k) * weightAt idx cb k o

/-- THE RESULT: the tokens times the dequantised weights. -/
def result (x : Tokens) (idx : Words) (cb : Codebook) : Result := fun i => resultAt x idx cb (i 0) (i 1) (i 2)

end Cert.Dequant

end
-- ==== Proof.KernelBody.lean ====
/-
  One grid point of the kernel: the block of the product it stores.

  At grid point `j` the body reads the whole token matrix `a : [4096, 4096]`, the index block `w : [4096, 128]` (columns
  `128 j … 128 j + 127` of the index words laid out as `[4096, 11008]`) and the codebook block `c : [1, 4096, 8]` (the
  eight codebook values of block `86 k + j`, for every `k`). Column `e` of the codebook block is broadcast along the 128
  lanes, the eight broadcasts are merged by the chain of selections on the index words, and the token matrix is multiplied
  with the merged matrix into a zero accumulator. So the stored block is
      out[p, q] = Σ_k a[p, k] · pick (c[0, k, ·]) (w[k, q]).
  A change of float format is the identity on the extended reals, so the two casts to bf16 do nothing here.
-/
import proofs.«414491_j70952859730267_3_alg».proof.Proof.Gen.KernelIdeal.Skeleton
import proofs.«414491_j70952859730267_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen

/-- The codebook block with its unit axis dropped and its format changed reads, at `(k, e)`, the block at `(0, k, e)`. -/
theorem codes_apply (x2 : Vec Ideal S1x4096x8 .f32) (k : Fin 4096) (e : Fin 8) :
    k0_pay3 x2 (ix2 k e) = x2 (ix3 (0 : Fin 1) k e) := by
  unfold k0_pay3
  exact shapeCast_1ab_ab_apply x2 shapeCasts_S1x4096x8_S4096x8 k e

/-- Column `e` of a `[4096, 8]` matrix, broadcast along 128 lanes, reads at `(k, q)` the matrix at `(k, e)`. -/
theorem column_apply (c : FVec Ideal S4096x8 .bf16) (e : Nat) (he : e < 8) (hs : S4096x8.Slices ![0, e] S4096x1)
    (hc : S4096x1.ShapeCasts S4096x1) (hb : S4096x1.Broadcasts S4096x128) (k : Fin 4096) (q : Fin 128) :
    broadcastTo S4096x128 (shapeCast S4096x1 (extractStridedSlice S4096x1 ![0, e] c hs) hc) hb (ix2 k q)
      = c (ix2 k ⟨e, he⟩) := by
  rw [shapeCast_self]
  refine (broadcastTo_apply _ hb (ix2 k q) (ix2 k (0 : Fin 1)) fun a => ?_).trans ?_
  · match a with
    | ⟨0, _⟩ => show k.val = if (4096 : Nat) = 1 then 0 else k.val; rw [if_neg (by decide)]
    | ⟨1, _⟩ => show 0 = if (1 : Nat) = 1 then 0 else q.val; rw [if_pos rfl]
  · refine extractStridedSlice_apply _ c hs (ix2 k (0 : Fin 1)) (ix2 k ⟨e, he⟩) fun a => ?_
    match a with
    | ⟨0, _⟩ => show k.val = 0 + k.val; omega
    | ⟨1, _⟩ => show e = e + 0; omega

/-- The merged matrix: at `(k, q)` the codebook value the index word `w[k, q]` picks among `c[0, k, ·]`. -/
theorem merged_apply (x1 : Vec Ideal S4096x128 .i32) (x2 : Vec Ideal S1x4096x8 .f32) (k : Fin 4096) (q : Fin 128) :
    select (cmpi .eq (k0_pay2 x1) (broadcast S4096x128 7#32)) (k0_pay5 x2) (k0_pay4 x1 x2) (ix2 k q)
      = Cert.Dequant.pick (fun e => x2 (ix3 (0 : Fin 1) k e)) (x1 (ix2 k q)) := by
  have hw : k0_pay2 x1 = x1 := by unfold k0_pay2; exact shapeCast_self _ _
  unfold k0_pay4 k0_pay5 Cert.Dequant.pick
  simp only [select, cmpi, broadcast, hw]
  rw [column_apply _ 7 (by decide), column_apply _ 6 (by decide), column_apply _ 5 (by decide),
    column_apply _ 4 (by decide), column_apply _ 3 (by decide), column_apply _ 2 (by decide),
    column_apply _ 1 (by decide), column_apply _ 0 (by decide)]
  simp only [codes_apply]
  rfl

theorem lhs_axis0 (i : S4096x128.Idx) (q : dot_S4096x4096_S4096x128_S4096x128_1_0_0_1_n_n.contr.Idx) :
    (dot_S4096x4096_S4096x128_S4096x128_1_0_0_1_n_n.lhsIdx i q 0).val = (i 0).val := by
  unfold DotDims.lhsIdx
  rw [dif_neg (show ¬(0 : Fin S4096x4096.rank) ∈ dot_S4096x4096_S4096x128_S4096x128_1_0_0_1_n_n.lhsBatch by decide), dif_pos (show (0 : Fin S4096x4096.rank) ∈ dot_S4096x4096_S4096x128_S4096x128_1_0_0_1_n_n.lhsNonContracting by decide)]
  rfl
theorem lhs_axis1 (i : S4096x128.Idx) (q : dot_S4096x4096_S4096x128_S4096x128_1_0_0_1_n_n.contr.Idx) :
    (dot_S4096x4096_S4096x128_S4096x128_1_0_0_1_n_n.lhsIdx i q 1).val = (q ⟨0, by decide⟩).val :=
  dot_S4096x4096_S4096x128_S4096x128_1_0_0_1_n_n.lhsIdx_val_of_single rfl i q
theorem rhs_axis0 (i : S4096x128.Idx) (q : dot_S4096x4096_S4096x128_S4096x128_1_0_0_1_n_n.contr.Idx) :
    (dot_S4096x4096_S4096x128_S4096x128_1_0_0_1_n_n.rhsIdx i q 0).val = (q ⟨0, by decide⟩).val :=
  dot_S4096x4096_S4096x128_S4096x128_1_0_0_1_n_n.rhsIdx_val_of_single rfl i q
theorem rhs_axis1 (i : S4096x128.Idx) (q : dot_S4096x4096_S4096x128_S4096x128_1_0_0_1_n_n.contr.Idx) :
    (dot_S4096x4096_S4096x128_S4096x128_1_0_0_1_n_n.rhsIdx i q 1).val = (i 1).val := by
  unfold DotDims.rhsIdx
  rw [dif_neg (show ¬(1 : Fin S4096x128.rank) ∈ dot_S4096x4096_S4096x128_S4096x128_1_0_0_1_n_n.rhsBatch by decide), dif_pos (show (1 : Fin S4096x128.rank) ∈ dot_S4096x4096_S4096x128_S4096x128_1_0_0_1_n_n.rhsNonContracting by decide)]
  rfl

/-- THE STORED BLOCK AT AN INDEX: the tokens' row `p` against the merged matrix's column `q`. -/
theorem block_apply (x0 : Vec Ideal S4096x4096 .bf16) (x1 : Vec Ideal S4096x128 .i32) (x2 : Vec Ideal S1x4096x8 .f32)
    (p : Fin 4096) (q : Fin 128) :
    k0_pay1 (k0_pay2 x1) (k0_pay4 x1 x2) (k0_pay5 x2) 7#32 x0 (ix2 p q)
      = ∑ k : Fin 4096, x0 (ix2 p k) * Cert.Dequant.pick (fun e => x2 (ix3 (0 : Fin 1) k e)) (x1 (ix2 k q)) := by
  unfold k0_pay1
  rw [shapeCast_self]
  show FloatOps.matmul (F := Ideal) dot_S4096x4096_S4096x128_S4096x128_1_0_0_1_n_n none (φ₁ := .bf16) (φ₂ := .bf16) x0 _
    (constant (F := Ideal) S4096x128 .f32 0x00000000#32) (ix2 p q) = _
  rw [Ideal.matmul_constant_zero_apply]
  rw [← Equiv.sum_comp (ValueIdx.contrEquiv1 dot_S4096x4096_S4096x128_S4096x128_1_0_0_1_n_n 4096 rfl rfl).symm]
  refine Finset.sum_congr rfl fun k _ => ?_
  have hk := ValueIdx.contrEquiv1_symm_val dot_S4096x4096_S4096x128_S4096x128_1_0_0_1_n_n 4096 rfl rfl k
  have el : dot_S4096x4096_S4096x128_S4096x128_1_0_0_1_n_n.lhsIdx (ix2 p q) ((ValueIdx.contrEquiv1 dot_S4096x4096_S4096x128_S4096x128_1_0_0_1_n_n 4096 rfl rfl).symm k) = ix2 p k := funext fun a => Fin.ext (by
    match a with
    | ⟨0, _⟩ => exact lhs_axis0 _ _
    | ⟨1, _⟩ => exact (lhs_axis1 _ _).trans hk)
  have er : dot_S4096x4096_S4096x128_S4096x128_1_0_0_1_n_n.rhsIdx (ix2 p q) ((ValueIdx.contrEquiv1 dot_S4096x4096_S4096x128_S4096x128_1_0_0_1_n_n 4096 rfl rfl).symm k) = ix2 k q := funext fun a => Fin.ext (by
    match a with
    | ⟨0, _⟩ => exact (rhs_axis0 _ _).trans hk
    | ⟨1, _⟩ => exact rhs_axis1 _ _)
  rw [el, er, merged_apply]

end Cert.KernelIdeal.Body

end
-- ==== Proof.KernelValue.lean ====
/-
  The kernel's whole result.

  The program around the pallas_call: the index words are re-laid as `[4096, 11008]` (row-major, so entry `(k, o)` is word
  `(86 k + o / 128, o mod 128)` of the argument); the codebook as `[4096, 86, 8]` and then transposed to `[86, 4096, 8]` (so
  entry `(j, k, e)` is codebook entry `(86 k + j, e)`); the tokens as `[4096, 4096]` (row `1024 b + s` is token `(b, s)`). Grid
  point `j` of 86 reads the whole token matrix, columns `128 j … 128 j + 127` of the words and slab `j` of the transposed
  codebook, and writes columns `128 j … 128 j + 127` of the product. The 86 column blocks tile the `[4096, 11008]` product,
  so after the run the product array holds, at `(p, o)`,
      Σ_k tokens[p, k] · pick (codebook[86 k + o / 128, ·]) (words[86 k + o / 128, o mod 128]),
  and the final reshape to `[4, 1024, 11008]` reads row `1024 b + s`: the specification's `result`.
-/
import proofs.«414491_j70952859730267_3_alg».proof.Proof.Gen.KernelIdeal.Frame
import proofs.«414491_j70952859730267_3_alg».proof.Proof.KernelBody
import proofs.«414491_j70952859730267_3_alg».proof.Proof.Spec
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.Whole

open Idealize.ShloMosaic Idealize.ShloMosaic.TcCoe Idealize.ShloMosaic.ValueIdx Idealize.SL.Sem
open Idealize.ShloMosaic.StableHlo
open Cert.KernelIdeal Cert.KernelIdeal.Gen
open Idealize.ShloMosaic.Pipeline (Dat)

variable (m : (ℓ : Loc nD τ sig) → Buf (Elt Ideal) ℓ) (ρ : Dev nD → PrngReg)

/-! ## The arrays the region finds, by their literal types -/

/-- The token matrix, the re-laid index words and the transposed codebook, as the region finds them. -/
abbrev toks (c : Dev nD) : S4096x4096.Idx → EReal := V m c main_v4
abbrev words (c : Dev nD) : S4096x11008.Idx → BitVec 32 := V m c main_v0
abbrev codes (c : Dev nD) : S86x4096x8.Idx → EReal := V m c main_v2
/-- The three arguments. -/
abbrev argX (c : Dev nD) : Cert.Dequant.Tokens := m ((c : Thread nD τ).loc main_arg0)
abbrev argIdx (c : Dev nD) : Cert.Dequant.Words := m ((c : Thread nD τ).loc main_arg1)
abbrev argCb (c : Dev nD) : Cert.Dequant.Codebook := m ((c : Thread nD τ).loc main_arg2)

/-- Row `p` of the token matrix is token `(p / 1024, p mod 1024)`. -/
theorem toks_apply (c : Dev nD) (p k : Fin 4096) :
    toks m c (ix2 p k) = argX m c (ix3 ⟨p.val / 1024, by omega⟩ ⟨p.val % 1024, Nat.mod_lt _ (by decide)⟩ k) := by
  have e : toks m c = truncf (F := Ideal) .bf16 (shapeCast S4096x4096 (argX m c) shapeCasts_S4x1024x4096_S4096x4096) bitsLt_bf16_f32 := by
    show StableHlo.after hostOps0 (fun b => m (c, b)) (Proc.devRef .tc main_v4) = _
    after_results
    rfl
  rw [e]
  show shapeCast S4096x4096 (argX m c) shapeCasts_S4x1024x4096_S4096x4096 (ix2 p k) = _
  refine shapeCast_apply _ _ _ _ ?_
  rw [Shape.rowMajor_val_three, Shape.rowMajor_val_two]
  show (p.val / 1024 * 1024 + p.val % 1024) * 4096 + k.val = p.val * 4096 + k.val
  omega

/-- Entry `(k, o)` of the re-laid index words is word `(86 k + o / 128, o mod 128)`. -/
theorem words_apply (c : Dev nD) (k : Fin 4096) (o : Fin 11008) :
    words m c (ix2 k o) = argIdx m c (ix2 (Cert.Dequant.blockOf k o) (Cert.Dequant.laneOf o)) := by
  have e : words m c = shapeCast S4096x11008 (argIdx m c) shapeCasts_S352256x128_S4096x11008 := by
    show StableHlo.after hostOps0 (fun b => m (c, b)) (Proc.devRef .tc main_v0) = _
    after_results
    rfl
  rw [e]
  refine shapeCast_apply _ _ _ _ ?_
  rw [Shape.rowMajor_val_two, Shape.rowMajor_val_two]
  show (k.val * 86 + o.val / 128) * 128 + o.val % 128 = k.val * 11008 + o.val
  omega

/-- Entry `(j, k, e)` of the transposed codebook is codebook entry `(86 k + j, e)`. -/
theorem codes_apply (c : Dev nD) (j : Fin 86) (k : Fin 4096) (e : Fin 8) :
    codes m c (ix3 j k e) = argCb m c (ix2 ⟨k.val * 86 + j.val, by omega⟩ e) := by
  have h : codes m c = transpose S86x4096x8 [1, 0, 2] (shapeCast S4096x86x8 (argCb m c) shapeCasts_S352256x8_S4096x86x8)
      transposes_S4096x86x8_S86x4096x8_1_0_2 := by
    show StableHlo.after hostOps0 (fun b => m (c, b)) (Proc.devRef .tc main_v2) = _
    after_results
    rfl
  rw [h]
  refine (transpose_apply _ _ _ (ix3 j k e) (ix3 k j e) fun b => ?_).trans ?_
  · match b with
    | ⟨0, _⟩ => rfl
    | ⟨1, _⟩ => rfl
    | ⟨2, _⟩ => rfl
  · refine shapeCast_apply _ _ _ _ ?_
    rw [Shape.rowMajor_val_two, Shape.rowMajor_val_three]
    show (k.val * 86 + j.val) * 8 + e.val = (k.val * 86 + j.val) * 8 + e.val
    rfl

/-! ## The product array after the region -/

/-- Entry `(p, o)` of the product over the arrays the region finds. -/
def productAt (c : Dev nD) (p : Fin 4096) (o : Fin 11008) : EReal :=
  ∑ k : Fin 4096, toks m c (ix2 p k)
    * Cert.Dequant.pick (fun e => codes m c (ix3 ⟨o.val / 128, by omega⟩ k e)) (words m c (ix2 k o))

/-- The product array. -/
def product (c : Dev nD) : S4096x11008.Idx → EReal := fun i => productAt m c (i 0) (i 1)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the tokens' block never moves, the words' and the product's move along the
    columns with the point, the codebook's along its leading axis. -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = t.val :=
  (by decide +kernel : ∀ t : Fin grid0.N, _)

theorem t_lt (t : Fin cfg0.N) : t.val < 86 := lt_of_lt_of_eq t.isLt N_0

/-- The three input blocks at point `t`, by their literal types. -/
abbrev tokBlk (c : Dev nD) (t : Fin cfg0.N) : Vec Ideal S4096x4096 .bf16 := iblk m c 0 t
abbrev wordBlk (c : Dev nD) (t : Fin cfg0.N) : Vec Ideal S4096x128 .i32 := iblk m c 1 t
abbrev codeBlk (c : Dev nD) (t : Fin cfg0.N) : Vec Ideal S1x4096x8 .f32 := iblk m c 2 t

theorem tokBlk_apply (c : Dev nD) (t : Fin cfg0.N) (p k : Fin 4096) : tokBlk m c t (ix2 p k) = toks m c (ix2 p k) := by
  obtain ⟨e0, e1, -⟩ := idx_facts t
  show V m c main_v4 (((cfg0.win 0).blk t).view.emb (ix2 p k)) = V m c main_v4 (ix2 p k)
  refine congrArg _ (funext fun a => Fin.ext ?_)
  match a with
  | ⟨0, _⟩ => show win0_0.index t (0 : Fin 2) * 4096 + 1 * p.val = p.val; omega
  | ⟨1, _⟩ => show win0_0.index t (1 : Fin 2) * 4096 + 1 * k.val = k.val; omega

theorem wordBlk_apply (c : Dev nD) (t : Fin cfg0.N) (k : Fin 4096) (q : Fin 128) :
    wordBlk m c t (ix2 k q) = words m c (ix2 k ⟨t.val * 128 + q.val, by have := t_lt t; omega⟩) := by
  obtain ⟨-, -, e2, e3, -⟩ := idx_facts t
  show V m c main_v0 (((cfg0.win 1).blk t).view.emb (ix2 k q)) = V m c main_v0 (ix2 k ⟨t.val * 128 + q.val, _⟩)
  refine congrArg _ (funext fun a => Fin.ext ?_)
  match a with
  | ⟨0, _⟩ => show win0_1.index t (0 : Fin 2) * 4096 + 1 * k.val = k.val; omega
  | ⟨1, _⟩ => show win0_1.index t (1 : Fin 2) * 128 + 1 * q.val = t.val * 128 + q.val; omega

theorem codeBlk_apply (c : Dev nD) (t : Fin cfg0.N) (k : Fin 4096) (e : Fin 8) :
    codeBlk m c t (ix3 (0 : Fin 1) k e) = codes m c (ix3 ⟨t.val, t_lt t⟩ k e) := by
  obtain ⟨-, -, -, -, e4, e5, e6, -⟩ := idx_facts t
  show V m c main_v2 (((cfg0.win 2).blk t).view.emb (ix3 (0 : Fin 1) k e)) = V m c main_v2 (ix3 ⟨t.val, _⟩ k e)
  refine congrArg _ (funext fun a => Fin.ext ?_)
  match a with
  | ⟨0, _⟩ => show win0_2.index t (0 : Fin 3) * 1 + 1 * 0 = t.val; omega
  | ⟨1, _⟩ => show win0_2.index t (1 : Fin 3) * 4096 + 1 * k.val = k.val; omega
  | ⟨2, _⟩ => show win0_2.index t (2 : Fin 3) * 8 + 1 * e.val = e.val; omega

/-- WHAT POINT `t` WRITES BACK is block `t` of the product. -/
theorem flushed_eq (c : Dev nD) (t : Fin cfg0.N) :
    (dats m 0 c).flushed 3 t = ((cfg0.win 3).blk t).view.read (Elt Ideal) (product m c) := by
  show (cfg0.win 3).cut (grid0.coords t) ((dats m 0 c).after 3 t) = _
  rw [after0_3]
  unfold out0_3
  rw [View.canon_unit_zero hz2]
  simp only [View.ld_unit_zero (S := S4096x128) hz2, View.ld_unit_zero (S := S1x4096x8) hz3,
    View.ld_unit_zero (S := S4096x4096) hz2]
  obtain ⟨-, -, -, -, -, -, -, e7, e8⟩ := idx_facts t
  funext j
  obtain ⟨p, q, rfl⟩ : ∃ (p : Fin 4096) (q : Fin 128), j = ix2 p q := ⟨j 0, j 1, eq_ix2 j⟩
  refine (Cert.KernelIdeal.Body.block_apply (tokBlk m c t) (wordBlk m c t) (codeBlk m c t) p q).trans ?_
  show _ = product m c (((cfg0.win 3).blk t).view.emb (ix2 p q))
  have hemb : ((cfg0.win 3).blk t).view.emb (ix2 p q) = ix2 p ⟨t.val * 128 + q.val, by have := t_lt t; omega⟩ := by
    funext a; apply Fin.ext
    match a with
    | ⟨0, _⟩ => show win0_3.index t (0 : Fin 2) * 4096 + 1 * p.val = p.val; omega
    | ⟨1, _⟩ => show win0_3.index t (1 : Fin 2) * 128 + 1 * q.val = t.val * 128 + q.val; omega
  rw [hemb]
  show _ = productAt m c p ⟨t.val * 128 + q.val, _⟩
  unfold productAt
  refine Finset.sum_congr rfl fun k _ => ?_
  have hq : (⟨(t.val * 128 + q.val) / 128, by have := t_lt t; omega⟩ : Fin 86) = ⟨t.val, t_lt t⟩ :=
    Fin.ext (by show (t.val * 128 + q.val) / 128 = t.val; omega)
  have hc : (fun e => codeBlk m c t (ix3 (0 : Fin 1) k e)) = fun e => codes m c (ix3 ⟨t.val, t_lt t⟩ k e) :=
    funext fun e => codeBlk_apply m c t k e
  rw [tokBlk_apply, wordBlk_apply, hc]
  show _ = toks m c (ix2 p k) * Cert.Dequant.pick (fun e => codes m c (ix3 ⟨(t.val * 128 + q.val) / 128, _⟩ k e)) _
  rw [hq]

/-- An index of the product array is in point `t`'s block iff each coordinate is in the block's range on its axis. -/
theorem mem_blk (t : Fin cfg0.N) (i : S4096x11008.Idx) :
    i ∈ ((cfg0.win 3).blk t).view.set ↔ ∀ a : Fin 2, win0_3.index t a * S4096x128.size a ≤ (i a).val
      ∧ (i a).val < win0_3.index t a * S4096x128.size a + S4096x128.size a := by
  show i ∈ ((View.whole main_v5).slice (win0_3.rect t)).set ↔ _
  rw [View.set_slice_whole, Rect.mem_set_unit]
  exact Iff.rfl

/-- The 86 column blocks cover the product array: column `o` lies in the block of point `o / 128`. -/
theorem cover (i : S4096x11008.Idx) : ∃ t : Fin cfg0.N, (cfg0.win 3).flush t = true ∧ i ∈ ((cfg0.win 3).blk t).view.set := by
  have hi0 : (i 0).val < 4096 := (i 0).isLt
  have hi1 : (i 1).val < 11008 := (i 1).isLt
  let t : Fin cfg0.N := ⟨(i 1).val / 128, by rw [show cfg0.N = 86 from N_0]; omega⟩
  obtain ⟨-, -, -, -, -, -, -, e7, e8⟩ := idx_facts t
  refine ⟨t, flush0_3 t, ?_⟩
  rw [mem_blk]
  intro a
  match a with
  | ⟨0, _⟩ => show win0_3.index t (0 : Fin 2) * 4096 ≤ (i 0).val ∧ (i 0).val < win0_3.index t (0 : Fin 2) * 4096 + 4096; omega
  | ⟨1, _⟩ =>
    show win0_3.index t (1 : Fin 2) * 128 ≤ (i 1).val ∧ (i 1).val < win0_3.index t (1 : Fin 2) * 128 + 128
    have : t.val = (i 1).val / 128 := rfl
    omega

/-- THE PRODUCT ARRAY after the run. -/
theorem final (c : Dev nD) : (dats m 0 c).arrAt 3 cfg0.N = product m c :=
  (dats m 0 c).arrAt_eq_of_cover 3 (product m c) (fun t _ => flushed_eq m c t) cover

/-- The product over the arguments: entry `(p, o)` is the specification's result at token `(p / 1024, p mod 1024)`. -/
theorem productAt_eq (c : Dev nD) (p : Fin 4096) (o : Fin 11008) :
    productAt m c p o = Cert.Dequant.resultAt (argX m c) (argIdx m c) (argCb m c)
      ⟨p.val / 1024, by omega⟩ ⟨p.val % 1024, Nat.mod_lt _ (by decide)⟩ o := by
  unfold productAt Cert.Dequant.resultAt Cert.Dequant.weightAt
  refine Finset.sum_congr rfl fun k _ => ?_
  have hc : (fun e => codes m c (ix3 ⟨o.val / 128, by omega⟩ k e))
      = fun e => argCb m c (ix2 (Cert.Dequant.blockOf k o) e) := funext fun e => codes_apply m c _ k e
  rw [toks_apply, words_apply, hc]

/-! ## The run -/

/-- The reshape after the region: the result at `(b, s, o)` is the product at row `1024 b + s`. -/
theorem tail_eq (c : Dev nD) :
    Pipeline.afterTail₀ cfgs (dats m) 0 (V0 m) [hostOps1] c main_v6
      = Cert.Dequant.result (argX m c) (argIdx m c) (argCb m c) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5)
      = product m c := (Pipeline.withArrays_arr spec0 launch0.win.arr_inj c _ _ 3).trans (final m c)
  rw [hw]
  funext i
  obtain ⟨b, s, o, rfl⟩ : ∃ (b : Fin 4) (s : Fin 1024) (o : Fin 11008), i = ix3 b s o := ⟨i 0, i 1, i 2, eq_ix3 i⟩
  show shapeCast S4x1024x11008 (product m c) shapeCasts_S4096x11008_S4x1024x11008 (ix3 b s o) = _
  refine (shapeCast_apply (product m c) shapeCasts_S4096x11008_S4x1024x11008 (ix3 b s o)
    (ix2 ⟨b.val * 1024 + s.val, by omega⟩ o) ?_).trans ?_
  · rw [Shape.rowMajor_val_two, Shape.rowMajor_val_three]
    show (b.val * 1024 + s.val) * 11008 + o.val = (b.val * 1024 + s.val) * 11008 + o.val
    rfl
  · show productAt m c ⟨b.val * 1024 + s.val, _⟩ o = Cert.Dequant.resultAt (argX m c) (argIdx m c) (argCb m c) b s o
    rw [productAt_eq]
    have h0 : (⟨(b.val * 1024 + s.val) / 1024, by omega⟩ : Fin 4) = b := Fin.ext (by show (b.val * 1024 + s.val) / 1024 = b.val; omega)
    have h1 : (⟨(b.val * 1024 + s.val) % 1024, Nat.mod_lt _ (by decide)⟩ : Fin 1024) = s :=
      Fin.ext (by show (b.val * 1024 + s.val) % 1024 = s.val; omega)
    show Cert.Dequant.resultAt _ _ _ ⟨(b.val * 1024 + s.val) / 1024, _⟩ ⟨(b.val * 1024 + s.val) % 1024, _⟩ o = _
    rw [h0, h1]

/-- THE KERNEL'S RUN: every weakly fair execution terminates with the result at the specification's `result` of the
    arguments, the arguments unchanged. -/
theorem run : θ_run defs (onTc (τ := τ) (main (F := Ideal))) ⟨m, fun _ => 0, ρ⟩ fun r => ∀ c : Dev nD,
      r.2.mem ((c.tc : Thread nD τ).loc main_v6) = Cert.Dequant.result (argX m c) (argIdx m c) (argCb m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.RefRun.lean ====
/-
  The reference's run.

  The reference is a straight line of 27 host operations. The first 22 are `take_along_axis`: the index words, wrapped
  once by 8 where negative (operations 1–7) and given a trailing unit axis (8); the two range tests of the wrapped
  words against 0 and 7, conjoined and reduced over the unit axis (9–18); the gather of one codebook value per word,
  row by row (19); and the selection between the gathered value and a fill constant by the range mask (20–22). The last
  five lay the gathered `[352256, 128]` values out as the `[4096, 11008]` weight matrix (two reshapes), lay the tokens out as
  `[4096, 4096]`, multiply, and lay the product out as `[4, 1024, 11008]`.
  Every weakly fair execution of such a line terminates with each buffer at the fold of the operations' results over
  the launch contents (`StableHlo.run_seq`). What the fold leaves in the result buffer is read here with every
  operation's pure function a PARAMETER of the operation list (`chain`, `chain_result`): then the composed term is found
  by rewriting with the operations' result lemmas alone, and nothing about a gather, a reduction or a matrix product
  over these extents is ever opened. The reference's own list is `chain` at its functions (`ops`), and its result the
  composed term `out` of the three arguments.
-/
import proofs.«414491_j70952859730267_3_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

/-- The contents of a buffer of shape `s` and element type `e`. -/
abbrev Cn (F : FTy → Type) [FloatOps F] (s : Shape) (e : EltTy) : Type := (⟨s, e⟩ : BufTy).Contents (Elt F)

variable {F : FTy → Type} [FloatOps F]

/-- @main's 27 operations, in order, over ANY pure functions of the right types: the callee's operations stand in the
    call's place, each writing its own buffer. -/
abbrev chain (k0 : Cn F S_ .i32) (f1 : Cn F S_ .i32 → Cn F S352256x128 .i32)
    (f2 : Cn F S352256x128 .i32 → Cn F S352256x128 .i32 → Cn F S352256x128 .i1)
    (k3 : Cn F S_ .i32) (f4 : Cn F S_ .i32 → Cn F S352256x128 .i32)
    (f5 : Cn F S352256x128 .i32 → Cn F S352256x128 .i32 → Cn F S352256x128 .i32)
    (f6 : Cn F S352256x128 .i1 → Cn F S352256x128 .i32 → Cn F S352256x128 .i32 → Cn F S352256x128 .i32)
    (k8 : Cn F S1 .i32) (k9 : Cn F S_ .i32) (f10 : Cn F S_ .i32 → Cn F S352256x128x1 .i32)
    (f11 : Cn F S352256x128x1 .i32 → Cn F S352256x128x1 .i32 → Cn F S352256x128x1 .i1)
    (f12 : Cn F S1 .i32 → Cn F S1x1x1 .i32) (f13 : Cn F S1x1x1 .i32 → Cn F S352256x128x1 .i32)
    (f14 : Cn F S352256x128x1 .i32 → Cn F S352256x128x1 .i32 → Cn F S352256x128x1 .i1)
    (f15 : Cn F S352256x128x1 .i1 → Cn F S352256x128x1 .i1 → Cn F S352256x128x1 .i1)
    (k16 : Cn F S_ .i1)
    (f17 : Cn F S352256x128x1 .i1 → Cn F S_ .i1 → Cn F S352256x128 .i1)
    (f18 : Cn F S352256x8 .f32 → Cn F S352256x128x1 .i32 → Cn F S352256x128 .f32)
    (k19 : Cn F S_ .f32) (f20 : Cn F S_ .f32 → Cn F S352256x128 .f32)
    (f21 : Cn F S352256x128 .i1 → Cn F S352256x128 .f32 → Cn F S352256x128 .f32 → Cn F S352256x128 .f32)
    (f25 : Cn F S4096x4096 .f32 → Cn F S4096x11008 .f32 → Cn F S4096x11008 .f32) :
    List (HloOp τ sig (Elt F)) :=
  [ TRef.nullary (TRef.of (T := ⟨S_, .i32⟩) main_call0_c) k0,
    TRef.unary (TRef.of (T := ⟨S_, .i32⟩) main_call0_c) (TRef.of (T := ⟨S352256x128, .i32⟩) main_call0_v0) f1,
    TRef.binary (TRef.of (T := ⟨S352256x128, .i32⟩) main_arg1) (TRef.of (T := ⟨S352256x128, .i32⟩) main_call0_v0) (TRef.of (T := ⟨S352256x128, .i1⟩) main_call0_v1) f2,
    TRef.nullary (TRef.of (T := ⟨S_, .i32⟩) main_call0_c_0) k3,
    TRef.unary (TRef.of (T := ⟨S_, .i32⟩) main_call0_c_0) (TRef.of (T := ⟨S352256x128, .i32⟩) main_call0_v2) f4,
    TRef.binary (TRef.of (T := ⟨S352256x128, .i32⟩) main_arg1) (TRef.of (T := ⟨S352256x128, .i32⟩) main_call0_v2) (TRef.of (T := ⟨S352256x128, .i32⟩) main_call0_v3) f5,
    TRef.ternary (TRef.of (T := ⟨S352256x128, .i1⟩) main_call0_v1) (TRef.of (T := ⟨S352256x128, .i32⟩) main_call0_v3) (TRef.of (T := ⟨S352256x128, .i32⟩) main_arg1) (TRef.of (T := ⟨S352256x128, .i32⟩) main_call0_v4) f6,
    TRef.reshape (TRef.of (T := ⟨S352256x128, .i32⟩) main_call0_v4) (TRef.of (T := ⟨S352256x128x1, .i32⟩) main_call0_v5) rfl shapeCasts_S352256x128_S352256x128x1,
    TRef.nullary (TRef.of (T := ⟨S1, .i32⟩) main_call0_c_1) k8,
    TRef.nullary (TRef.of (T := ⟨S_, .i32⟩) main_call0_c_2) k9,
    TRef.unary (TRef.of (T := ⟨S_, .i32⟩) main_call0_c_2) (TRef.of (T := ⟨S352256x128x1, .i32⟩) main_call0_v6) f10,
    TRef.binary (TRef.of (T := ⟨S352256x128x1, .i32⟩) main_call0_v5) (TRef.of (T := ⟨S352256x128x1, .i32⟩) main_call0_v6) (TRef.of (T := ⟨S352256x128x1, .i1⟩) main_call0_v7) f11,
    TRef.unary (TRef.of (T := ⟨S1, .i32⟩) main_call0_c_1) (TRef.of (T := ⟨S1x1x1, .i32⟩) main_call0_v8) f12,
    TRef.unary (TRef.of (T := ⟨S1x1x1, .i32⟩) main_call0_v8) (TRef.of (T := ⟨S352256x128x1, .i32⟩) main_call0_v9) f13,
    TRef.binary (TRef.of (T := ⟨S352256x128x1, .i32⟩) main_call0_v5) (TRef.of (T := ⟨S352256x128x1, .i32⟩) main_call0_v9) (TRef.of (T := ⟨S352256x128x1, .i1⟩) main_call0_v10) f14,
    TRef.binary (TRef.of (T := ⟨S352256x128x1, .i1⟩) main_call0_v7) (TRef.of (T := ⟨S352256x128x1, .i1⟩) main_call0_v10) (TRef.of (T := ⟨S352256x128x1, .i1⟩) main_call0_v11) f15,
    TRef.nullary (TRef.of (T := ⟨S_, .i1⟩) main_call0_c_3) k16,
    TRef.binary (TRef.of (T := ⟨S352256x128x1, .i1⟩) main_call0_v11) (TRef.of (T := ⟨S_, .i1⟩) main_call0_c_3) (TRef.of (T := ⟨S352256x128, .i1⟩) main_call0_v12) f17,
    TRef.binary (TRef.of (T := ⟨S352256x8, .f32⟩) main_arg2) (TRef.of (T := ⟨S352256x128x1, .i32⟩) main_call0_v5) (TRef.of (T := ⟨S352256x128, .f32⟩) main_call0_v13) f18,
    TRef.nullary (TRef.of (T := ⟨S_, .f32⟩) main_call0_cst) k19,
    TRef.unary (TRef.of (T := ⟨S_, .f32⟩) main_call0_cst) (TRef.of (T := ⟨S352256x128, .f32⟩) main_call0_v14) f20,
    TRef.ternary (TRef.of (T := ⟨S352256x128, .i1⟩) main_call0_v12) (TRef.of (T := ⟨S352256x128, .f32⟩) main_call0_v13) (TRef.of (T := ⟨S352256x128, .f32⟩) main_call0_v14) (TRef.of (T := ⟨S352256x128, .f32⟩) main_v0) f21,
    reshape main_v0 main_v1 rfl shapeCasts_S352256x128_S45088768,
    reshape main_v1 main_v2 rfl shapeCasts_S45088768_S4096x11008,
    reshape main_arg0 main_v3 rfl shapeCasts_S4x1024x4096_S4096x4096,
    binary main_v3 main_v2 main_v4 f25,
    reshape main_v4 main_v5 rfl shapeCasts_S4096x11008_S4x1024x11008 ]

set_option maxHeartbeats 4000000 in
/-- WHAT THE CHAIN LEAVES IN THE RESULT BUFFER: the functions composed as the buffers feed one another — the wrapped
    words `f6 (f2 x₁ (f1 k0)) (f5 x₁ (f4 k3)) x₁` with a unit axis added feed both range tests and the gather. -/
theorem chain_result (k0 : Cn F S_ .i32) (f1 : Cn F S_ .i32 → Cn F S352256x128 .i32)
    (f2 : Cn F S352256x128 .i32 → Cn F S352256x128 .i32 → Cn F S352256x128 .i1)
    (k3 : Cn F S_ .i32) (f4 : Cn F S_ .i32 → Cn F S352256x128 .i32)
    (f5 : Cn F S352256x128 .i32 → Cn F S352256x128 .i32 → Cn F S352256x128 .i32)
    (f6 : Cn F S352256x128 .i1 → Cn F S352256x128 .i32 → Cn F S352256x128 .i32 → Cn F S352256x128 .i32)
    (k8 : Cn F S1 .i32) (k9 : Cn F S_ .i32) (f10 : Cn F S_ .i32 → Cn F S352256x128x1 .i32)
    (f11 : Cn F S352256x128x1 .i32 → Cn F S352256x128x1 .i32 → Cn F S352256x128x1 .i1)
    (f12 : Cn F S1 .i32 → Cn F S1x1x1 .i32) (f13 : Cn F S1x1x1 .i32 → Cn F S352256x128x1 .i32)
    (f14 : Cn F S352256x128x1 .i32 → Cn F S352256x128x1 .i32 → Cn F S352256x128x1 .i1)
    (f15 : Cn F S352256x128x1 .i1 → Cn F S352256x128x1 .i1 → Cn F S352256x128x1 .i1)
    (k16 : Cn F S_ .i1)
    (f17 : Cn F S352256x128x1 .i1 → Cn F S_ .i1 → Cn F S352256x128 .i1)
    (f18 : Cn F S352256x8 .f32 → Cn F S352256x128x1 .i32 → Cn F S352256x128 .f32)
    (k19 : Cn F S_ .f32) (f20 : Cn F S_ .f32 → Cn F S352256x128 .f32)
    (f21 : Cn F S352256x128 .i1 → Cn F S352256x128 .f32 → Cn F S352256x128 .f32 → Cn F S352256x128 .f32)
    (f25 : Cn F S4096x4096 .f32 → Cn F S4096x11008 .f32 → Cn F S4096x11008 .f32)
    (V : Valuation τ sig (Elt F)) :
    after (chain k0 f1 f2 k3 f4 f5 f6 k8 k9 f10 f11 f12 f13 f14 f15 k16 f17 f18 k19 f20 f21 f25) V (Proc.devRef .tc main_v5)
      = shapeCast S4x1024x11008
          (f25 (shapeCast S4096x4096 (V (Proc.devRef .tc main_arg0)) shapeCasts_S4x1024x4096_S4096x4096)
            (shapeCast S4096x11008 (shapeCast S45088768
              (f21
                (f17 (f15
                  (f11 (shapeCast S352256x128x1 (f6 (f2 (V (Proc.devRef .tc main_arg1)) (f1 k0)) (f5 (V (Proc.devRef .tc main_arg1)) (f4 k3)) (V (Proc.devRef .tc main_arg1))) shapeCasts_S352256x128_S352256x128x1) (f10 k9))
                  (f14 (shapeCast S352256x128x1 (f6 (f2 (V (Proc.devRef .tc main_arg1)) (f1 k0)) (f5 (V (Proc.devRef .tc main_arg1)) (f4 k3)) (V (Proc.devRef .tc main_arg1))) shapeCasts_S352256x128_S352256x128x1) (f13 (f12 k8)))) k16)
                (f18 (V (Proc.devRef .tc main_arg2)) (shapeCast S352256x128x1 (f6 (f2 (V (Proc.devRef .tc main_arg1)) (f1 k0)) (f5 (V (Proc.devRef .tc main_arg1)) (f4 k3)) (V (Proc.devRef .tc main_arg1))) shapeCasts_S352256x128_S352256x128x1))
                (f20 k19))
              shapeCasts_S352256x128_S45088768) shapeCasts_S45088768_S4096x11008))
          shapeCasts_S4096x11008_S4x1024x11008 := by
  after_results_simp <;> rfl

/-- The reference's own operations. -/
abbrev ops : List (HloOp τ sig (Elt F)) :=
  chain (F := F) (constantI S_ 32 0#32) (broadcastInDim S352256x128 ![] bcast_S_S352256x128) (cmpi .slt) (constantI S_ 32 8#32)
    (broadcastInDim S352256x128 ![] bcast_S_S352256x128) addi select (constantI S1 32 7#32) (constantI S_ 32 0#32)
    (broadcastInDim S352256x128x1 ![] bcast_S_S352256x128x1) (cmpi .sge) (broadcastInDim S1x1x1 ![2] bcast_S1_S1x1x1_2)
    (broadcastInDim S352256x128x1 ![0, 1, 2] bcast_S1x1x1_S352256x128x1_0_1_2) (cmpi .sle) andi (constantI S_ 1 1#1)
    (fun x v => Host.reduce IntOp.andi x v reducesTo_S352256x128x1_S352256x128_d2 h_S_)
    (fun x i => Host.gather gather_S352256x8_S352256x128x1_S352256x128_n_1_0_0_1_2_11 x i)
    (constant S_ .f32 0x7FC00000#32) (broadcastInDim S352256x128 ![] bcast_S_S352256x128) select
    (fun l r => Host.dotGeneral dot_S4096x4096_S4096x11008_S4096x11008_1_0_0_1_n_n none l r)

/-- The reference's result as one term of its three arguments. -/
def out (x0 : Cn F S4x1024x4096 .f32) (x1 : Cn F S352256x128 .i32) (x2 : Cn F S352256x8 .f32) : Cn F S4x1024x11008 .f32 :=
  shapeCast _ (Host.dotGeneral dot_S4096x4096_S4096x11008_S4096x11008_1_0_0_1_n_n none (shapeCast _ (x0) shapeCasts_S4x1024x4096_S4096x4096) (shapeCast _ (shapeCast _ (select (Host.reduce IntOp.andi (andi (cmpi .sge (shapeCast _ (select (cmpi .slt (x1) (broadcastInDim S352256x128 ![] bcast_S_S352256x128 (constantI S_ 32 0#32))) (addi (x1) (broadcastInDim S352256x128 ![] bcast_S_S352256x128 (constantI S_ 32 8#32))) (x1)) shapeCasts_S352256x128_S352256x128x1) (broadcastInDim S352256x128x1 ![] bcast_S_S352256x128x1 (constantI S_ 32 0#32))) (cmpi .sle (shapeCast _ (select (cmpi .slt (x1) (broadcastInDim S352256x128 ![] bcast_S_S352256x128 (constantI S_ 32 0#32))) (addi (x1) (broadcastInDim S352256x128 ![] bcast_S_S352256x128 (constantI S_ 32 8#32))) (x1)) shapeCasts_S352256x128_S352256x128x1) (broadcastInDim S352256x128x1 ![0, 1, 2] bcast_S1x1x1_S352256x128x1_0_1_2 (broadcastInDim S1x1x1 ![2] bcast_S1_S1x1x1_2 (constantI S1 32 7#32))))) (constantI S_ 1 1#1) reducesTo_S352256x128x1_S352256x128_d2 h_S_) (Host.gather gather_S352256x8_S352256x128x1_S352256x128_n_1_0_0_1_2_11 (x2) (shapeCast _ (select (cmpi .slt (x1) (broadcastInDim S352256x128 ![] bcast_S_S352256x128 (constantI S_ 32 0#32))) (addi (x1) (broadcastInDim S352256x128 ![] bcast_S_S352256x128 (constantI S_ 32 8#32))) (x1)) shapeCasts_S352256x128_S352256x128x1)) (broadcastInDim S352256x128 ![] bcast_S_S352256x128 (constant S_ .f32 0x7FC00000#32))) shapeCasts_S352256x128_S45088768) shapeCasts_S45088768_S4096x11008)) shapeCasts_S4096x11008_S4x1024x11008

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., reshape_bufs_sub .., reshape_bufs_sub .., binary_bufs_sub .., reshape_bufs_sub ..⟩

/-- The fold at the result buffer is `out` of the launch contents of the arguments. -/
theorem out_eq (V : Valuation τ sig (Elt F)) :
    after (ops (F := F)) V (Proc.devRef .tc main_v5)
      = out (V (Proc.devRef .tc main_arg0)) (V (Proc.devRef .tc main_arg1)) (V (Proc.devRef .tc main_arg2)) :=
  chain_result _ _ _ _ _ _ _ _ _ _ _ _ _ _ _ _ _ _ _ _ _ _ V

/-- No operation writes an argument's buffer. -/
theorem arg0_eq (V : Valuation τ sig (Elt F)) : after (ops (F := F)) V (Proc.devRef .tc main_arg0) = V (Proc.devRef .tc main_arg0) := by
  after_results <;> rfl
theorem arg1_eq (V : Valuation τ sig (Elt F)) : after (ops (F := F)) V (Proc.devRef .tc main_arg1) = V (Proc.devRef .tc main_arg1) := by
  after_results <;> rfl
theorem arg2_eq (V : Valuation τ sig (Elt F)) : after (ops (F := F)) V (Proc.devRef .tc main_arg2) = V (Proc.devRef .tc main_arg2) := by
  after_results <;> rfl

set_option maxHeartbeats 2000000 in
/-- On every device, for any float values, from any memory with zero counters: every weakly fair execution of @main
    terminates with the result at `out` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v5).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.HandRun

end
-- ==== Proof.LibTakeAlong.lean ====
/-
  `take_along_axis` along the last axis of a matrix, read at an index, on any element type.

  `jnp.take_along_axis(x, idx, axis=1)` for `x : [N, E]` and `idx : [N, C]` lowers to a gather whose leading axis is a
  BATCHING axis of both the operand and the start indices (operand_batching_dims [0], start_indices_batching_dims [0]),
  with collapsed_slice_dims [1], start_index_map [1], index_vector_dim 2 over the indices reshaped to `[N, C, 1]`, no
  offset axes and slice sizes [1, 1]: result entry `(r, l)` is the operand's entry of row `r` at column `idx[r, l, 0]`,
  that word read as a signed integer and clamped into [0, E − 1]. Before the gather jnp wraps a negative index once by
  the axis size, `select (v < 0) (v + E) v`, and after it replaces the entries whose wrapped index is outside [0, E − 1]
  by a fill value; for a word that is already in range the wrap returns it and both range tests succeed.
-/
import Idealize.ShloMosaic.PureOps.Ideal
import Idealize.ShloMosaic.PureOps.Reduce
import Idealize.ShloMosaic.Lib.ValueIdx

noncomputable section

namespace Cert.LibTakeAlong

open Idealize.ShloMosaic Idealize.ShloMosaic.ValueIdx

/-- The dimension numbers of a gather along the last axis of a matrix, row by row; their conditions `wf` are decided on
    a program's literal shapes. -/
abbrev alongDims (N E C : Nat)
    (wf : GatherDims.WF ⟨2, ![N, E]⟩ ⟨3, ![N, C, 1]⟩ ⟨2, ![N, C]⟩ [] [1] [0] [1] [0] 2 ![1, 1]) :
    GatherDims ⟨2, ![N, E]⟩ ⟨3, ![N, C, 1]⟩ ⟨2, ![N, C]⟩ where
  offsetDims := []
  collapsedSliceDims := [1]
  operandBatchingDims := [0]
  startIndicesBatchingDims := [0]
  startIndexMap := [1]
  indexVectorDim := 2
  sliceSizes := ![1, 1]
  wf := wf

/-- A signed index word clamped to a column of an axis of `E` columns. -/
def clampCol {E : Nat} (hE : 0 < E) (w : BitVec 32) : Fin E := ⟨min w.toInt.toNat (E - 1), by omega⟩

/-- THE GATHER READ AT AN INDEX: entry `(r, l)` is the operand's row `r` at column `clamp (idx[r, l, 0])`. -/
theorem gather_along_apply {α : Type} {N E C : Nat} (hE : 0 < E)
    (wf : GatherDims.WF ⟨2, ![N, E]⟩ ⟨3, ![N, C, 1]⟩ ⟨2, ![N, C]⟩ [] [1] [0] [1] [0] 2 ![1, 1])
    (x : (⟨2, ![N, E]⟩ : Shape).Idx → α) (idx : (⟨3, ![N, C, 1]⟩ : Shape).Idx → BitVec 32) (r : Fin N) (l : Fin C) :
    Host.gather (alongDims N E C wf) x idx (ix2 r l) = x (ix2 r (clampCol hE (idx (ix3 r l 0)))) := by
  unfold Host.gather
  congr 1
  funext a
  refine Fin.ext ?_
  match a with
  | ⟨0, _⟩ =>
    show (alongDims N E C wf).start (ix2 r l) idx 0 + (alongDims N E C wf).batchCoord (ix2 r l) 0
      + (alongDims N E C wf).offCoord (ix2 r l) 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (alongDims N E C wf).operandBatchingDims from List.mem_singleton.mpr rfl)]
    rfl
  | ⟨1, _⟩ =>
    show (alongDims N E C wf).start (ix2 r l) idx 1 + (alongDims N E C wf).batchCoord (ix2 r l) 1
      + (alongDims N E C wf).offCoord (ix2 r l) 1 = min (idx (ix3 r l 0)).toInt.toNat (E - 1)
    rw [GatherDims.batchCoord_eq_zero _ _ _ (show (1 : Fin 2) ∉ [(0 : Fin 2)] by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims N E C wf).startIndexMap from List.mem_singleton.mpr rfl)]
    have hsi : (alongDims N E C wf).siIdx (ix2 r l) ⟨List.idxOf (1 : Fin 2) (alongDims N E C wf).startIndexMap,
        List.idxOf_lt_length_iff.2 (List.mem_singleton.mpr rfl)⟩ = ix3 r l 0 := by
      funext b; refine Fin.ext ?_
      match b with
      | ⟨0, _⟩ => rfl
      | ⟨1, _⟩ => rfl
      | ⟨2, _⟩ => rfl
    rw [hsi]
    rfl

/-- jnp's wrap of a negative index returns a word that, read signed, is not negative. -/
theorem wrap_of_nonneg (n : BitVec 32) (v : BitVec 32) (h0 : 0 ≤ v.toInt) :
    Scalar.select (IntOp.cmpi .slt v 0#32) (IntOp.addi v n) v = v := by
  unfold Scalar.select IntOp.cmpi
  have hs : v.slt 0#32 = false := by simp [BitVec.slt]; omega
  simp only [hs]
  rfl

/-- The lower range test succeeds on a word that, read signed, is not negative. -/
theorem sge_zero_of_nonneg (v : BitVec 32) (h0 : 0 ≤ v.toInt) : IntOp.cmpi .sge v 0#32 = 1#1 := by
  unfold IntOp.cmpi
  have hs : (0#32 : BitVec 32).sle v = true := by simp [BitVec.sle]; omega
  simp only [hs]
  rfl

/-- The upper range test succeeds on a word that, read signed, is at most the bound read signed. -/
theorem sle_of_le (v hi : BitVec 32) (h : v.toInt ≤ hi.toInt) : IntOp.cmpi .sle v hi = 1#1 := by
  unfold IntOp.cmpi
  have hs : v.sle hi = true := by simp only [BitVec.sle, decide_eq_true_eq]; exact h
  simp only [hs]
  rfl

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi (1#1 : BitVec 1) 1#1 = 1#1 from by decide]
    exact foldl_andi_one f l fun n hn => h n (List.mem_cons_of_mem _ hn)

/-- The range mask: a reduction by `and` from 1 over an array of 1s is 1 at every index, whatever the reduced axes. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_one x _ fun n _ => hx n

/-- A word that, read signed, lies in [0, E) clamps to the column it names. -/
theorem clampCol_of_range {E : Nat} (hE : 0 < E) (w : BitVec 32) (h0 : 0 ≤ w.toInt) (h : w.toInt < E) :
    (clampCol hE w).val = w.toInt.toNat := by
  show min w.toInt.toNat (E - 1) = w.toInt.toNat
  omega

end Cert.LibTakeAlong

end
-- ==== Proof.RefValue.lean ====
/-
  The reference computes the specification's result when every index word is in range.

  With every word `w` in [0, 8): jnp's wrap leaves `w`; both range tests succeed, so the mask reduced over the unit axis
  is 1 everywhere and the selection keeps the gathered value; the gather reads codebook entry `(r, clamp w) = (r, w)`; and
  the chain of selections `pick` is that same entry. The two reshapes lay gathered entry `(r, l)` at weight `(k, o)` with
  `128 r + l = 11008 k + o`, that is `r = 86 k + o / 128`, `l = o mod 128`; the matrix product over the tokens laid out as
  `[4096, 4096]` and the last reshape give the sum over `k` of token `(b, s, k)` times weight `(k, o)`.
-/
import proofs.«414491_j70952859730267_3_alg».proof.Proof.RefRead
import proofs.«414491_j70952859730267_3_alg».proof.Proof.RefRun
import proofs.«414491_j70952859730267_3_alg».proof.Proof.LibTakeAlong
import proofs.«414491_j70952859730267_3_alg».proof.Proof.Spec

noncomputable section

namespace Cert.ReferenceIdeal.RefValue

open Idealize.ShloMosaic Idealize.ShloMosaic.ValueIdx Cert.ReferenceIdeal Cert.ReferenceIdeal.Gen Cert.ReferenceIdeal.ReadCopy
open Cert.Dequant Cert.LibTakeAlong

variable (x0 : Tokens) (x1 : Words) (x2 : Codebook)

/-- The wrapped word is the word, when it is not negative. -/
theorem wrapped_apply (hr : ∀ i, 0 ≤ (x1 i).toInt ∧ (x1 i).toInt < 8) (i : S352256x128.Idx) :
    val_main_call0_v4 (F := Ideal) x1 i = x1 i := by
  rw [val_main_call0_v4_apply, val_main_call0_v1_apply, val_main_call0_v3_apply, val_main_call0_v0_apply,
    val_main_call0_v2_apply]
  exact wrap_of_nonneg _ _ (hr i).1

/-- With the unit axis added, entry `(r, l, 0)` of the wrapped words is word `(r, l)`. -/
theorem wrapped3_apply (hr : ∀ i, 0 ≤ (x1 i).toInt ∧ (x1 i).toInt < 8) (i : S352256x128x1.Idx) :
    val_main_call0_v5 (F := Ideal) x1 i = x1 (idx_main_call0_v5 i) := by
  rw [val_main_call0_v5_apply, wrapped_apply x1 hr]

/-- The range mask is 1 everywhere. -/
theorem mask_apply (hr : ∀ i, 0 ≤ (x1 i).toInt ∧ (x1 i).toInt < 8) (j : S352256x128.Idx) :
    val_main_call0_v12 (F := Ideal) x1 j = 1#1 := by
  unfold val_main_call0_v12
  refine reduce_andi_of_all _ _ _ _ (fun _ => rfl) (fun i => ?_) j
  rw [val_main_call0_v11_apply, val_main_call0_v7_apply, val_main_call0_v10_apply, val_main_call0_v6_apply,
    val_main_call0_v9_apply, val_main_call0_v8_apply, wrapped3_apply x1 hr]
  have h := hr (idx_main_call0_v5 i)
  have e7 : (7#32 : BitVec 32).toInt = 7 := by decide
  have a : IntOp.cmpi .sge (x1 (idx_main_call0_v5 i)) 0#32 = 1#1 := sge_zero_of_nonneg _ h.1
  have b : IntOp.cmpi .sle (x1 (idx_main_call0_v5 i)) 7#32 = 1#1 := sle_of_le _ _ (by rw [e7]; omega)
  exact IntOp.andi_eq_one.2 ⟨a, b⟩

/-- The value gathered for word `(r, l)` is the codebook value the chain of selections picks. -/
theorem taken_apply (hr : ∀ i, 0 ≤ (x1 i).toInt ∧ (x1 i).toInt < 8) (r : Fin 352256) (l : Fin 128) :
    val_main_v0 (F := Ideal) x1 x2 (ix2 r l) = pick (fun e => x2 (ix2 r e)) (x1 (ix2 r l)) := by
  rw [val_main_v0_apply, mask_apply x1 hr]
  show (if (1#1 : BitVec 1) = 1 then val_main_call0_v13 (F := Ideal) x1 x2 (ix2 r l) else _) = _
  rw [if_pos (by decide : (1#1 : BitVec 1) = 1)]
  unfold val_main_call0_v13
  show Host.gather (alongDims 352256 8 128 gather_S352256x8_S352256x128x1_S352256x128_n_1_0_0_1_2_11_wf) x2
    (val_main_call0_v5 (F := Ideal) x1) (ix2 r l) = _
  rw [gather_along_apply (by decide : 0 < 8), wrapped3_apply x1 hr]
  have hi : idx_main_call0_v5 (ix3 r l (0 : Fin 1)) = ix2 r l := funext fun a => Fin.ext (by
    match a with
    | ⟨0, _⟩ => show ((r.val * 128 + l.val) * 1 + 0) / 128 = r.val; omega
    | ⟨1, _⟩ => show ((r.val * 128 + l.val) * 1 + 0) % 128 = l.val; omega)
  rw [hi]
  have h := hr (ix2 r l)
  rw [pick_of_range _ _ h.1 h.2]
  have hn := toNat_lt_of_range _ h.1 h.2
  have hc : clampCol (by decide : 0 < 8) (x1 (ix2 r l)) = entryOf (x1 (ix2 r l)) := Fin.ext (by
    rw [clampCol_of_range _ _ h.1 (by exact_mod_cast h.2)]
    show (x1 (ix2 r l)).toInt.toNat = (x1 (ix2 r l)).toNat % 8
    have hw := (x1 (ix2 r l)).isLt
    rw [BitVec.toInt_eq_toNat_cond]
    split <;> omega)
  rw [hc]

/-- Entry `(k, o)` of the reference's weight matrix is the specification's. -/
theorem weights_apply (hr : ∀ i, 0 ≤ (x1 i).toInt ∧ (x1 i).toInt < 8) (k : Fin 4096) (o : Fin 11008) :
    val_main_v2 (F := Ideal) x1 x2 (ix2 k o) = weightAt x1 x2 k o := by
  rw [val_main_v2_apply, val_main_v1_apply]
  have hi : idx_main_v1 (idx_main_v2 (ix2 k o)) = ix2 (blockOf k o) (laneOf o) := funext fun a => Fin.ext (by
    match a with
    | ⟨0, _⟩ => show (k.val * 11008 + o.val) / 128 = k.val * 86 + o.val / 128; omega
    | ⟨1, _⟩ => show (k.val * 11008 + o.val) % 128 = o.val % 128; omega)
  rw [hi, taken_apply x1 x2 hr]
  rfl

/-- THE REFERENCE'S RESULT is the specification's, when every index word lies in [0, 8). -/
theorem result_eq (hr : ∀ i, 0 ≤ (x1 i).toInt ∧ (x1 i).toInt < 8) :
    val_main_v5 (F := Ideal) x0 x1 x2 = result x0 x1 x2 := by
  funext i
  obtain ⟨b, s, o, rfl⟩ : ∃ (b : Fin 4) (s : Fin 1024) (o : Fin 11008), i = ix3 b s o := ⟨i 0, i 1, i 2, eq_ix3 i⟩
  rw [val_main_v5_apply, val_main_v4_apply]
  show _ = resultAt x0 x1 x2 b s o
  unfold resultAt
  refine Finset.sum_congr rfl fun k _ => ?_
  have hl : idx_main_v3 (lidx_main_v4 (idx_main_v5 (ix3 b s o)) k) = ix3 b s k := funext fun a => Fin.ext (by
    match a with
    | ⟨0, _⟩ => show (((b.val * 1024 + s.val) * 11008 + o.val) / 11008 * 4096 + k.val) / 4194304 = b.val; omega
    | ⟨1, _⟩ => show (((b.val * 1024 + s.val) * 11008 + o.val) / 11008 * 4096 + k.val) / 4096 % 1024 = s.val; omega
    | ⟨2, _⟩ => show (((b.val * 1024 + s.val) * 11008 + o.val) / 11008 * 4096 + k.val) % 4096 = k.val; omega)
  have hr' : ridx_main_v4 (idx_main_v5 (ix3 b s o)) k = ix2 k o := funext fun a => Fin.ext (by
    match a with
    | ⟨0, _⟩ => rfl
    | ⟨1, _⟩ => show ((b.val * 1024 + s.val) * 11008 + o.val) % 11008 = o.val; omega)
  rw [val_main_v3_apply, hl, hr', weights_apply x1 x2 hr]

/-- The run's composed term is that result. -/
theorem out_eq (hr : ∀ i, 0 ≤ (x1 i).toInt ∧ (x1 i).toInt < 8) :
    Cert.ReferenceIdeal.HandRun.out (F := Ideal) x0 x1 x2 = result x0 x1 x2 :=
  (val_main_v5_eq (F := Ideal) x0 x1 x2).trans (result_eq x0 x1 x2 hr)

end Cert.ReferenceIdeal.RefValue

end
-- ==== Proof.PreRead.lean ====
/-
  What the precondition says of the index words.

  The precondition is the conjunction of four `all`s: every token finite, every codebook value finite, every index word
  at least 0, every index word below 8 (the comparisons signed). Each `all` is a reduction by `and` from 1 over the whole
  array, so when the conjunction is 1 every compared element is 1: every index word, read signed, lies in [0, 8).
  Finiteness of the floats is not used by the proof: both programs apply the same sums and products to the same
  extended reals, and no law that fails at an infinity is needed.
-/
import proofs.«414491_j70952859730267_3_alg».proof.Pre_finite_inputs
import Idealize.ShloMosaic.Lib.ReduceAll
import Idealize.ShloMosaic.Lib.ValueIdx
import Idealize.ShloMosaic.Lib.StableHlo.Predicate

noncomputable section

namespace Cert.PreRead

open Idealize.ShloMosaic Cert.Pre_finite_inputs

variable [Cert.Pre_finite_inputs.Facts]

instance : Subsingleton S_.Idx := ⟨fun _ _ => funext fun d => d.elim0⟩

/-- Under the precondition every index word, read as a signed integer, lies in [0, 8). -/
theorem idx_range {F : FTy → Type} [FloatOps F] (x : FVec F S4x1024x4096 .f32) (idx : IVec S352256x128 32)
    (cb : FVec F S352256x8 .f32) (h : fn (F := F) x idx cb = fun _ => 1#1) (i : S352256x128.Idx) :
    0 ≤ (idx i).toInt ∧ (idx i).toInt < 8 := by
  have h0 := congrFun h ValueIdx.ix0
  dsimp only [fn, fn_part1] at h0
  obtain ⟨h12, h15⟩ := IntOp.andi_eq_one.1 h0
  obtain ⟨_, h11⟩ := IntOp.andi_eq_one.1 h12
  have ge : IntOp.cmpi .sge (idx i) 0#32 = 1#1 := Host.reduce_andi_all _ _ _ _ _ h11 i
  have lt : IntOp.cmpi .slt (idx i) 8#32 = 1#1 := Host.reduce_andi_all _ _ _ _ _ h15 i
  have e8 : (8#32 : BitVec 32).toInt = 8 := by decide
  have e0 : (0#32 : BitVec 32).toInt = 0 := by decide
  constructor
  · have := (StableHlo.Predicate.ofBool_eq_one_iff _).1 ge
    simp only [BitVec.sle, decide_eq_true_eq, e0] at this
    exact this
  · have := (StableHlo.Predicate.ofBool_eq_one_iff _).1 lt
    simp only [BitVec.slt, decide_eq_true_eq, e8] at this
    exact this

end Cert.PreRead

end
-- ==== Proof.lean ====
/-
  A quantised linear layer, fused against its plain form: `out = x · W` over the extended reals, where the weight matrix
  `W : [4096, 11008]` is stored as 352256 blocks of 128 index words, each block with a codebook of eight values, and
  `W[k, o] = codebook[86 k + o / 128, idx[86 k + o / 128, o mod 128]]`.

  The kernel never builds `W`: at each of 86 grid points it merges the eight codebook columns of one 128-column slab of `W`
  by a chain of selections on the index words and multiplies the whole token matrix with the slab. The reference builds
  `W` by `take_along_axis` and multiplies once. Both are the same sums of the same products of extended reals — no law
  that fails at an infinity is used, so the finiteness of the floats plays no part — PROVIDED every index word lies in
  [0, 8): outside that range the kernel's chain falls through to entry 0 while the reference wraps a negative word by 8
  and fills any other with a constant. The precondition carries that range, and it is the only part of it the proof
  reads (Proof/PreRead.lean).

  The specification is Proof/Spec.lean's `result`. The kernel's run ends at it (Proof/KernelBody.lean: one grid point's
  block; Proof/KernelValue.lean: the 86 blocks tile the product, and the reshapes around the call), the reference's run ends
  at its composed term (Proof/RefRun.lean), which is `result` under the range (Proof/RefValue.lean over the operations read
  one at a time, Proof/RefRead.lean, and the gather of Proof/LibTakeAlong.lean). The ideal pass rewrote nothing, so the
  kernel's idealization is its own text read over the extended reals.
-/
import proofs.«414491_j70952859730267_3_alg».proof.Defs
import proofs.«414491_j70952859730267_3_alg».proof.Proof.Gen.Kernel
import proofs.«414491_j70952859730267_3_alg».proof.Proof.Gen.Kernel.Skeleton
import proofs.«414491_j70952859730267_3_alg».proof.Proof.Gen.Kernel.Launch
import proofs.«414491_j70952859730267_3_alg».proof.Proof.Gen.Kernel.Points
import proofs.«414491_j70952859730267_3_alg».proof.Proof.Gen.Kernel.Frame
import proofs.«414491_j70952859730267_3_alg».proof.Proof.Gen.KernelIdeal
import proofs.«414491_j70952859730267_3_alg».proof.Proof.Gen.KernelIdeal.Skeleton
import proofs.«414491_j70952859730267_3_alg».proof.Proof.Gen.KernelIdeal.Launch
import proofs.«414491_j70952859730267_3_alg».proof.Proof.Gen.KernelIdeal.Points
import proofs.«414491_j70952859730267_3_alg».proof.Proof.Gen.KernelIdeal.Frame
import proofs.«414491_j70952859730267_3_alg».proof.Proof.Gen.ReferenceIdeal
import proofs.«414491_j70952859730267_3_alg».proof.Proof.Gen.Pre_finite_inputs
import proofs.«414491_j70952859730267_3_alg».proof.Proof.KernelValue
import proofs.«414491_j70952859730267_3_alg».proof.Proof.RefValue
import proofs.«414491_j70952859730267_3_alg».proof.Proof.PreRead
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- The ideal pass rewrote no operation. -/
theorem preserves : Cert.preserves_Kernel_KernelIdeal := trivial

/-- From memories that agree on the three arguments, both programs end with the tokens times the dequantised weights:
    the kernel always, the reference because the precondition puts every index word in [0, 8). -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2]
  exact Cert.ReferenceIdeal.RefValue.out_eq _ _ _ (Cert.PreRead.idx_range _ _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
